-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S1024x256 : Shape := ⟨2, ![1024, 256]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S1024x256 : S_.BroadcastsInDim S1024x256 (![] : Fin 0 → Fin S1024x256.rank)
  reducesTo_S1024x256_S_d0_1 : S1024x256.ReducesTo [0, 1] S_

variable [Facts]

def fn {F : FTy → Type} [FloatOps F] (main_arg0 : FVec F S16384x256 .f32) (main_arg1 : FVec F S1024x256 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S1024x256 .f32 := Host.absf main_arg1
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  main_v8
-- ==== Kernel.lean ====
abbrev S16384x256 : Shape := ⟨2, ![16384, 256]⟩
abbrev S1024x256 : Shape := ⟨2, ![1024, 256]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 3
  | .vmem => 5
  | .smem => 0
  | _ => 0

abbrev bufTy : (tb : Table) → Fin (tcTables nBuf tb) → BufTy
  | .hbm, ⟨0, _⟩ => ⟨S16384x256, .f32⟩
  | .hbm, ⟨1, _⟩ => ⟨S1024x256, .f32⟩
  | .hbm, ⟨2, _⟩ => ⟨S16384x256, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  reduces_S1024x1024_S1024 : S1024x1024.Reduces [1] S1024
  shapeCasts_S1024_S1024x1 : S1024.ShapeCasts S1024x1
  broadcasts_S1024x1_S1024x1024 : S1024x1.Broadcasts S1024x1024
  broadcasts_S1024x1_S1024x256 : S1024x1.Broadcasts S1024x256
  dot_S1024x256_S1024x256_S1024x1024_1_1_0_0_n_n_wf : DotDims.WF S1024x256 S1024x256 S1024x1024 [1] [1] [0] [0] [] []
  dot_S1024x1024_S1024x256_S1024x256_1_0_0_1_n_n_wf : DotDims.WF S1024x1024 S1024x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S16384x256.size a
  hwx0_0 : ∀ i : grid0.Coords, EltTy.bits .f32 = 32 ∨ (Rect.block (s := S16384x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x256.size a
  hwx0_1 : ∀ i : grid0.Coords, EltTy.bits .f32 = 32 ∨ (Rect.block (s := S1024x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S16384x256.size a
  hwx0_2 : ∀ i : grid0.Coords, EltTy.bits .f32 = 32 ∨ (Rect.block (s := S16384x256) S1024x256.size (cc0_transform_2 i) (hinb0_2 i)).WholeWords (EltTy.packing .f32)

variable [Facts₀]

def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x256 : Shape := ⟨2, ![16384, 256]⟩
abbrev S1024x256 : Shape := ⟨2, ![1024, 256]⟩
abbrev S256x1024 : Shape := ⟨2, ![256, 1024]⟩
abbrev S16384x1024 : Shape := ⟨2, ![16384, 1024]⟩
abbrev S_ : Shape := ⟨0, ![]⟩
abbrev S16384 : Shape := ⟨1, ![16384]⟩
abbrev S16384x1 : Shape := ⟨2, ![16384, 1]⟩

abbrev nBuf : Space → Nat
  | .hbm => 43
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S1024x256, .f32⟩
  | .hbm, ⟨2, _⟩ => ⟨S256x1024, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S_, .f32⟩
  | .hbm, ⟨7, _⟩ => ⟨S16384, .f32⟩
  | .hbm, ⟨8, _⟩ => ⟨S16384, .f32⟩
  | .hbm, ⟨9, _⟩ => ⟨S16384x1, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S_, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S_, .f32⟩
  | .hbm, ⟨28, _⟩ => ⟨S16384, .f32⟩
  | .hbm, ⟨29, _⟩ => ⟨S_, .f32⟩
  | .hbm, ⟨30, _⟩ => ⟨S16384, .f32⟩
  | .hbm, ⟨31, _⟩ => ⟨S16384, .f32⟩
  | .hbm, ⟨32, _⟩ => ⟨S16384x1, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S_, .f32⟩
  | .hbm, ⟨37, _⟩ => ⟨S16384, .f32⟩
  | .hbm, ⟨38, _⟩ => ⟨S16384x1, .f32⟩
  | .hbm, ⟨39, _⟩ => ⟨S16384x1024, .f32⟩
  | .hbm, ⟨40, _⟩ => ⟨S16384x1024, .f32⟩
  | .hbm, ⟨41, _⟩ => ⟨S16384x256, .f32⟩
  | .hbm, ⟨42, _⟩ => ⟨S16384x256, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_cst_5 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_6 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩

abbrev nD : Nat := 1
abbrev τ : Topo := Topo.v7x

variable {F : FTy → Type} [FloatOps F]

class Facts₀ : Prop where
  transposes_S1024x256_S256x1024_1_0 : S1024x256.Transposes [1, 0] S256x1024
  reducesTo_S16384x1024_S16384_d1 : S16384x1024.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x1024_0_1 : S16384x1.BroadcastsInDim S16384x1024 (![0, 1] : Fin 2 → Fin S16384x1024.rank)
  bcast_S_S16384x1024 : S_.BroadcastsInDim S16384x1024 (![] : Fin 0 → Fin S16384x1024.rank)
  dot_S16384x256_S256x1024_S16384x1024_1_0_0_1_n_n_wf : DotDims.WF S16384x256 S256x1024 S16384x1024 [1] [0] [0] [1] [] []
  dot_S16384x1024_S1024x256_S16384x256_1_0_0_1_n_n_wf : DotDims.WF S16384x1024 S1024x256 S16384x256 [1] [0] [0] [1] [] []

variable [Facts₀]

def dot_S16384x256_S256x1024_S16384x1024_1_0_0_1_n_n : DotDims S16384x256 S256x1024 S16384x1024 where
  lhsContracting := [1]
  rhsContracting := [0]
  lhsNonContracting := [0]
  rhsNonContracting := [1]
  lhsBatch := []
  rhsBatch := []
  wf := dot_S16384x256_S256x1024_S16384x1024_1_0_0_1_n_n_wf
def dot_S16384x1024_S1024x256_S16384x256_1_0_0_1_n_n : DotDims S16384x1024 S1024x256 S16384x256 where
  lhsContracting := [1]
  rhsContracting := [0]
  lhsNonContracting := [0]
  rhsNonContracting := [1]
  lhsBatch := []
  rhsBatch := []
  wf := dot_S16384x1024_S1024x256_S16384x256_1_0_0_1_n_n_wf

class Facts : Prop extends Facts₀ where

variable [Facts]
-- ==== Proof.RowLaw.lean ====
/-
  The row law of memory-bank attention, on the extended reals.

  One output entry depends on one row of attention logits `a : K → EReal` (the token against every memory slot) and one
  column `b : K → EReal` of the bank. Two arrangements of the same chain are stated here as functions of `a` and `b`:

  * `kernelRow`: `e = exp (a - max a)`, `p = e · (1 / Σ e)`, `s = max (p - c) 0`, `f = exp s`, and the result
    `tanh ((Σ f · b) · (1 / Σ f))` — the normalisation of the second softmax applied after the contraction with the bank;
  * `referenceRow`: `p = e / Σ e`, `s = sign p · max (|p| - c) 0`, then a second softmax with its own maximum
    subtracted, `w = exp (s - max s) / Σ exp (s - max s)`, and `tanh (Σ w · b)`.

  On finite logits and a finite bank column the two agree (`kernelRow_eq_referenceRow`): every intermediate value is a
  real number, `e > 0` so `p > 0`, whence `sign p = 1` and `|p| = p`; the second softmax does not change when a
  constant is subtracted from its argument (`exp (s - M) = exp s / exp M`, and the factor cancels in the quotient); and a
  factor `1 / Σ f` common to every term of a finite sum of reals moves across the sum.
-/
import Idealize.ShloMosaic.PureOps.Ideal
import Idealize.ShloMosaic.PureOps.Ideal.Laws

noncomputable section

namespace Cert.MemoryAttention

open Idealize.ShloMosaic

variable {K : Type} [Fintype K]

/-! ## The two arrangements -/

/-- The maximum of a row, from `-∞`. -/
def rowMax (a : K → EReal) : EReal := (Finset.univ : Finset K).fold max ⊥ a

/-- The shifted exponentials of the first softmax. -/
def expShift (a : K → EReal) (k : K) : EReal := Ideal.exp (a k - rowMax a)

/-- The kernel's soft-shrunk first softmax: the exponentials times the reciprocal of their sum, less `c`, clipped at `0`. -/
def kernelShrunk (c : EReal) (a : K → EReal) (k : K) : EReal :=
  max (expShift a k * Ideal.div 1 (∑ k', expShift a k') - c) 0

/-- The kernel's row: the bank column weighted by `exp` of the shrunk weights, then normalised. -/
def kernelRow (c : EReal) (a b : K → EReal) : EReal :=
  Ideal.tanh ((∑ k, Ideal.exp (kernelShrunk c a k) * b k) * Ideal.div 1 (∑ k, Ideal.exp (kernelShrunk c a k)))

/-- The reference's shifted exponentials: its row maximum is once more compared with `-∞`. -/
def refExp (a : K → EReal) (k : K) : EReal := Ideal.exp (a k - max ⊥ (rowMax a))

/-- The reference's first softmax. -/
def refProb (a : K → EReal) (k : K) : EReal := Ideal.div (refExp a k) (0 + ∑ k', refExp a k')

/-- The reference's soft shrink `sign p · max (|p| - c) 0`. -/
def refShrunk (c : EReal) (a : K → EReal) (k : K) : EReal :=
  Ideal.sign (refProb a k) * max (max (refProb a k) (-(refProb a k)) - c) 0

/-- The reference's second softmax. -/
def refWeight (c : EReal) (a : K → EReal) (k : K) : EReal :=
  Ideal.div (refExp (refShrunk c a) k) (0 + ∑ k', refExp (refShrunk c a) k')

/-- The reference's row. -/
def referenceRow (c : EReal) (a b : K → EReal) : EReal := Ideal.tanh (∑ k, refWeight c a k * b k)

/-! ## Real numbers inside the extended reals -/

theorem coe_max (x y : ℝ) : ((max x y : ℝ) : EReal) = max (x : EReal) (y : EReal) :=
  EReal.coe_strictMono.monotone.map_max

/-- A finite sum of reals, summed in the extended reals, is the real sum. -/
theorem sum_coe (f : K → ℝ) : (∑ k, (f k : EReal)) = ((∑ k, f k : ℝ) : EReal) := by
  classical
  refine Finset.induction_on (Finset.univ : Finset K) (by simp) ?_
  intro a s ha ih
  rw [Finset.sum_insert ha, Finset.sum_insert ha, ih, EReal.coe_add]

/-- The maximum from `-∞` over any finite set of reals is `-∞` or a real. -/
theorem fold_max_coe (f : K → ℝ) (s : Finset K) :
    s.fold max (⊥ : EReal) (fun k => (f k : EReal)) = ⊥ ∨ ∃ m : ℝ, s.fold max (⊥ : EReal) (fun k => (f k : EReal)) = m := by
  classical
  refine Finset.induction_on s (Or.inl (Finset.fold_empty)) ?_
  intro a s ha ih
  rw [Finset.fold_insert ha]
  rcases ih with h | ⟨m, h⟩
  · exact Or.inr ⟨f a, by rw [h, max_bot_right]⟩
  · exact Or.inr ⟨max (f a) m, by rw [h, coe_max]⟩

/-- Over a nonempty row of reals the maximum is a real. -/
theorem rowMax_coe [Nonempty K] (f : K → ℝ) : ∃ m : ℝ, rowMax (fun k => (f k : EReal)) = m := by
  classical
  obtain ⟨k0⟩ := ‹Nonempty K›
  unfold rowMax
  rw [← Finset.insert_erase (Finset.mem_univ k0), Finset.fold_insert (Finset.notMem_erase k0 _)]
  rcases fold_max_coe f (Finset.univ.erase k0) with h | ⟨m, h⟩
  · exact ⟨f k0, by rw [h, max_bot_right]⟩
  · exact ⟨max (f k0) m, by rw [h, coe_max]⟩

theorem div_one_coe {z : ℝ} (hz : z ≠ 0) : Ideal.div 1 (z : EReal) = ((1 / z : ℝ) : EReal) := by
  rw [Ideal.div_coe hz, one_mul]

theorem div_coe_coe (x : ℝ) {z : ℝ} (hz : z ≠ 0) : Ideal.div (x : EReal) (z : EReal) = ((x / z : ℝ) : EReal) := by
  rw [Ideal.div_coe hz, ← EReal.coe_mul, mul_one_div]

theorem exp_sub_coe (x m : ℝ) : Ideal.exp ((x : EReal) - (m : EReal)) = ((Real.exp (x - m) : ℝ) : EReal) := by
  rw [← EReal.coe_sub, Ideal.exp_coe]

theorem max_sub_zero_coe (p c : ℝ) : max ((p : EReal) - (c : EReal)) 0 = ((max (p - c) 0 : ℝ) : EReal) := by
  rw [← EReal.coe_sub, ← EReal.coe_zero, ← coe_max]

/-- For a positive real `p` the soft shrink `sign p · max (|p| - c) 0` is `max (p - c) 0`. -/
theorem softshrink_pos {p : ℝ} (hp : 0 < p) (c : ℝ) :
    Ideal.sign (p : EReal) * max (max (p : EReal) (-(p : EReal)) - (c : EReal)) 0 = ((max (p - c) 0 : ℝ) : EReal) := by
  have habs : max (p : EReal) (-(p : EReal)) = p :=
    max_eq_left (by rw [← EReal.coe_neg, EReal.coe_le_coe_iff]; linarith)
  rw [Ideal.sign_of_pos (EReal.coe_pos.mpr hp), one_mul, habs, max_sub_zero_coe]

/-! ## The law -/

/-- On real logits and a real bank column the two arrangements give the same extended real. -/
theorem kernelRow_eq_referenceRow [Nonempty K] (c : ℝ) (a b : K → ℝ) :
    kernelRow (c : EReal) (fun k => (a k : EReal)) (fun k => (b k : EReal))
      = referenceRow (c : EReal) (fun k => (a k : EReal)) (fun k => (b k : EReal)) := by
  obtain ⟨m, hm⟩ := rowMax_coe a
  -- the first softmax
  have hZ : 0 < ∑ k, Real.exp (a k - m) := Finset.sum_pos (fun k _ => Real.exp_pos _) Finset.univ_nonempty
  have he : ∀ k, expShift (fun k => (a k : EReal)) k = ((Real.exp (a k - m) : ℝ) : EReal) := fun k => by
    unfold expShift; rw [hm, exp_sub_coe]
  have he' : ∀ k, refExp (fun k => (a k : EReal)) k = ((Real.exp (a k - m) : ℝ) : EReal) := fun k => by
    unfold refExp; rw [hm, max_eq_right bot_le, exp_sub_coe]
  -- the shrunk weights, the same real on both sides
  have hs : ∀ k, kernelShrunk (c : EReal) (fun k => (a k : EReal)) k
      = ((max (Real.exp (a k - m) / (∑ k', Real.exp (a k' - m)) - c) 0 : ℝ) : EReal) := fun k => by
    unfold kernelShrunk
    simp only [he]
    rw [sum_coe, div_one_coe hZ.ne', ← EReal.coe_mul, mul_one_div, max_sub_zero_coe]
  have hs' : ∀ k, refShrunk (c : EReal) (fun k => (a k : EReal)) k
      = ((max (Real.exp (a k - m) / (∑ k', Real.exp (a k' - m)) - c) 0 : ℝ) : EReal) := fun k => by
    unfold refShrunk refProb
    simp only [he']
    rw [sum_coe, zero_add, div_coe_coe _ hZ.ne', softshrink_pos (div_pos (Real.exp_pos _) hZ)]
  set s : K → ℝ := fun k => max (Real.exp (a k - m) / (∑ k', Real.exp (a k' - m)) - c) 0 with hsdef
  have hF : 0 < ∑ k, Real.exp (s k) := Finset.sum_pos (fun k _ => Real.exp_pos _) Finset.univ_nonempty
  -- the kernel's row as a real
  have hk : kernelRow (c : EReal) (fun k => (a k : EReal)) (fun k => (b k : EReal))
      = ((Real.tanh ((∑ k, Real.exp (s k) * b k) * (1 / ∑ k, Real.exp (s k))) : ℝ) : EReal) := by
    unfold kernelRow
    simp only [hs, Ideal.exp_coe, ← EReal.coe_mul]
    rw [sum_coe, sum_coe, div_one_coe hF.ne', ← EReal.coe_mul, Ideal.tanh_coe]
  -- the reference's row as a real
  have hfun : (refShrunk (c : EReal) fun k => (a k : EReal)) = fun k => ((s k : ℝ) : EReal) := funext hs'
  obtain ⟨m2, hm2⟩ := rowMax_coe s
  have hG : 0 < ∑ k, Real.exp (s k - m2) := Finset.sum_pos (fun k _ => Real.exp_pos _) Finset.univ_nonempty
  have hr : referenceRow (c : EReal) (fun k => (a k : EReal)) (fun k => (b k : EReal))
      = ((Real.tanh (∑ k, Real.exp (s k - m2) / (∑ k', Real.exp (s k' - m2)) * b k) : ℝ) : EReal) := by
    unfold referenceRow refWeight
    rw [hfun]
    have hx : ∀ k, refExp (fun k => ((s k : ℝ) : EReal)) k = ((Real.exp (s k - m2) : ℝ) : EReal) := fun k => by
      unfold refExp; rw [hm2, max_eq_right bot_le, exp_sub_coe]
    simp only [hx]
    rw [sum_coe, zero_add]
    simp only [div_coe_coe _ hG.ne', ← EReal.coe_mul]
    rw [sum_coe, Ideal.tanh_coe]
  rw [hk, hr]
  congr 2
  -- the real identity: the shift cancels in the quotient, and the common factor leaves the sum
  have hq : ∀ k, Real.exp (s k - m2) / (∑ k', Real.exp (s k' - m2)) = Real.exp (s k) / ∑ k', Real.exp (s k') := fun k => by
    simp only [Real.exp_sub]
    rw [← Finset.sum_div, div_div_div_cancel_right₀ (Real.exp_pos m2).ne']
  simp only [hq]
  rw [Finset.sum_mul]
  refine Finset.sum_congr rfl fun k _ => ?_
  rw [mul_one_div, div_mul_eq_mul_div]

end Cert.MemoryAttention

end
-- ==== Proof.Entry.lean ====
/-
  One entry of the memory-bank attention output, as a function of a token's feature row and of the bank.

  For a token with features `xr : Fin 256 → EReal` and a bank `B` of 1024 slots of 256 features, the logit against slot
  `k` is `Σ_d xr d · B (k, d)`; output feature `j` contracts the doubly soft-maxed weights with column `j` of the bank. The
  kernel's arrangement is `kernelEntry`, the reference's `referenceEntry` (the two rows of the row-law module at these
  logits and this column, with the shrink threshold the f32 pattern both programs spell). When the token's features and
  the bank are real numbers the two are equal (`kernelEntry_eq_referenceEntry`): the logits are then finite sums of real
  products, so the row law applies.

  The float patterns the two programs spell are read here once: `+0.0` is `0`, `1.0` is `1`, the pattern of `-inf` is `⊥`, and
  the threshold's pattern (the f32 nearest to 0.0025) is some real number — which one does not matter, both programs
  use the same pattern.
-/
import proofs.«115783_g57990648430879_cont_sun_c4_352_9_alg».proof.Proof.RowLaw
import Idealize.ShloMosaic.Lib.ValueIdx

noncomputable section

namespace Cert.MemoryAttention

open Idealize.ShloMosaic Idealize.ShloMosaic.ValueIdx

/-! ## The patterns -/

theorem ofBits_one : Ideal.ofBits .f32 0x3F800000#32 = 1 := by
  simp [Ideal.ofBits, Ideal.ieee, -EReal.coe_mul]; norm_num

theorem ofBits_negInf : Ideal.ofBits .f32 0xFF800000#32 = ⊥ := by
  simp [Ideal.ofBits, Ideal.ieee]

/-- The shrink threshold both programs subtract: the f32 pattern of 0.0025. -/
def threshold : EReal := Ideal.ofBits .f32 0x3B23D70A#32

/-- The threshold's pattern denotes a real number (a normal f32). -/
theorem threshold_real : ∃ c : ℝ, threshold = (c : EReal) := by
  unfold threshold
  simp [Ideal.ofBits, Ideal.ieee, -EReal.coe_mul]

/-! ## One entry -/

/-- The bank: 1024 slots of 256 features. -/
abbrev Bank : Type := (⟨2, ![1024, 256]⟩ : Shape).Idx → EReal

/-- A token's logits against the 1024 slots. -/
def logits (xr : Fin 256 → EReal) (B : Bank) (k : Fin 1024) : EReal := ∑ d : Fin 256, xr d * B (ix2 k d)

/-- Column `j` of the bank. -/
def bankColumn (B : Bank) (j : Fin 256) (k : Fin 1024) : EReal := B (ix2 k j)

/-- Output feature `j` of a token, in the kernel's arrangement. -/
def kernelEntry (xr : Fin 256 → EReal) (B : Bank) (j : Fin 256) : EReal :=
  kernelRow threshold (logits xr B) (bankColumn B j)

/-- Output feature `j` of a token, in the reference's arrangement. -/
def referenceEntry (xr : Fin 256 → EReal) (B : Bank) (j : Fin 256) : EReal :=
  referenceRow threshold (logits xr B) (bankColumn B j)

/-- For a token with real features against a real bank the two arrangements agree. -/
theorem kernelEntry_eq_referenceEntry (xr : Fin 256 → EReal) (B : Bank) (j : Fin 256)
    (hx : ∀ d, ∃ r : ℝ, xr d = (r : EReal)) (hB : ∀ i, ∃ r : ℝ, B i = (r : EReal)) :
    kernelEntry xr B j = referenceEntry xr B j := by
  choose x' hx' using hx
  choose B' hB' using hB
  obtain ⟨c, hc⟩ := threshold_real
  have hl : logits xr B = fun k => ((∑ d : Fin 256, x' d * B' (ix2 k d) : ℝ) : EReal) := funext fun k => by
    unfold logits
    simp only [hx', hB', ← EReal.coe_mul]
    rw [sum_coe]
  have hb : bankColumn B j = fun k => ((B' (ix2 k j) : ℝ) : EReal) := funext fun k => hB' _
  unfold kernelEntry referenceEntry
  rw [hl, hb, hc]
  exact kernelRow_eq_referenceRow c _ _

end Cert.MemoryAttention

end
-- ==== Proof.LibColumn.lean ====
/-
  Column vectors read at an index: a rank-1 array of `a` entries seen as an [a, 1] column, and an [a, 1] column
  broadcast across `b` columns. The library reads the ROW forms ([a] as [1, a]; [1, b] over [a, b]) by coordinates;
  these are the transposed cases, in the same style: the reshape by equating row-major positions, the broadcast by
  giving, per axis of the operand, the coordinate it is read at (0 on its unit axis).
-/
import Idealize.ShloMosaic.Lib.Pipeline.Value
import Idealize.ShloMosaic.Lib.ValueIdx

namespace Cert.Lib.Column

open Idealize.ShloMosaic Idealize.ShloMosaic.ValueIdx

variable {α : Type}

/-- A rank-1 array of `a` entries cast to an [a, 1] column reads, at `(i, u)`, the operand at `i`, whatever the unit
    coordinate `u`: entry `(i, u)` of the column sits at row-major position `i · 1 + u = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast to [a, b] reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Column
-- ==== Proof.KernelRow.lean ====
/-
  The kernel's payload read at an index: entry `(p, q)` of the block the body stores is `kernelEntry` of row `p` of the
  token block and of the bank block.

  The body holds a [1024, 256] block of tokens and the whole [1024, 256] bank. Its stages are named here as they stand
  in the payload — the logits (a contraction over the feature axis of both operands), the shifted exponentials of the
  first softmax, the soft-shrunk weights, their exponentials — and each is read at `(p, k)` in terms of the stage before
  at row `p`: a lane maximum is the fold of `max` from `-∞` over the slots, a lane sum the sum over the slots, and a
  row statistic recast as a column and broadcast along the row is read at the entry's own row. The last stage contracts
  the exponentials with the bank over the slot axis and scales row `p` by the reciprocal of its sum.
-/
import proofs.«115783_g57990648430879_cont_sun_c4_352_9_alg».proof.Proof.Gen.KernelIdeal.Skeleton
import proofs.«115783_g57990648430879_cont_sun_c4_352_9_alg».proof.Proof.Entry
import proofs.«115783_g57990648430879_cont_sun_c4_352_9_alg».proof.Proof.LibColumn
import Idealize.ShloMosaic.Lib.ValueIdx
import Idealize.ShloMosaic.Lib.Pipeline.Value
import Idealize.ShloMosaic.PureOps.Ideal.Laws

noncomputable section

namespace Cert.MemoryAttention.Kernel

open Cert.KernelIdeal Cert.KernelIdeal.Gen
open Idealize.ShloMosaic Idealize.ShloMosaic.ValueIdx Cert.MemoryAttention Cert.Lib.Column

/-! ## Reductions along the slots, and a row statistic broadcast back -/

/-- The index over row `p` with slot `k` inserted on the reduced axis is `(p, k)`. -/
theorem lift_eq (h : S1024x1024.Reduces [1] S1024) (p : Fin 1024) (k : Fin 1024) : h.lift (ix1 p) k = ix2 p k :=
  funext fun a => Fin.ext (by match a with | ⟨0, _⟩ => rfl | ⟨1, _⟩ => rfl)

/-- A lane maximum from the pattern of `-inf`: the row's maximum from `-∞`. -/
theorem laneMax_at (y : FVec Ideal S1024x1024 .f32) (p : Fin 1024) :
    multiReduction .maximumf [1] S1024 y 0xFF800000#32 reduces_S1024x1024_S1024 (.inl rfl) rfl (ix1 p)
      = rowMax fun k => y (ix2 p k) := by
  refine (Ideal.multiReduction_maximumf_single y 0xFF800000#32 reduces_S1024x1024_S1024 (.inl rfl) rfl (ix1 p)).trans ?_
  have hy : (y ∘ (reduces_S1024x1024_S1024).lift (ix1 p)) = fun k : Fin 1024 => y (ix2 p k) :=
    funext fun k => congrArg y (lift_eq _ p k)
  show Finset.fold max (Ideal.ofBits .f32 0xFF800000#32) (y ∘ _) Finset.univ = _
  rw [hy, ofBits_negInf]
  rfl

/-- A lane sum: the row's sum over the slots. -/
theorem laneSum_at (y : FVec Ideal S1024x1024 .f32) (p : Fin 1024) :
    multiReduction .add [1] S1024 y 0x00000000#32 reduces_S1024x1024_S1024 (.inl rfl) rfl (ix1 p)
      = ∑ k : Fin 1024, y (ix2 p k) := by
  refine (Ideal.multiReduction_add_single y 0x00000000#32 reduces_S1024x1024_S1024 (.inl rfl) rfl (ix1 p)).trans ?_
  exact Finset.sum_congr rfl fun k _ => congrArg y (lift_eq _ p k)

/-- A row statistic recast as a column and broadcast along the slots reads the statistic of the entry's row. -/
theorem rowStat_slots (v : FVec Ideal S1024 .f32) (p k : Fin 1024) :
    broadcastTo S1024x1024 (shapeCast S1024x1 v shapeCasts_S1024_S1024x1) broadcasts_S1024x1_S1024x1024 (ix2 p k) = v (ix1 p) := by
  rw [broadcastTo_a1_ab_apply, shapeCast_a_a1_apply]

/-! ## The stages of the payload -/

variable (x0 x1 : Vec Ideal S1024x256 .f32)

/-- The logits of the token block against the bank. -/
def scores : FVec Ideal S1024x1024 .f32 :=
  matmul dot_S1024x256_S1024x256_S1024x1024_1_1_0_0_n_n none (truncf .bf16 x0 bitsLt_bf16_f32) (truncf .bf16 x1 bitsLt_bf16_f32)
    (constant S1024x1024 .f32 0x00000000#32)

/-- The first softmax's shifted exponentials. -/
def shifted : FVec Ideal S1024x1024 .f32 :=
  exp (subf (scores x0 x1) (broadcastTo S1024x1024 (shapeCast S1024x1
    (multiReduction .maximumf [1] S1024 (scores x0 x1) 0xFF800000#32 reduces_S1024x1024_S1024 (.inl rfl) rfl)
    shapeCasts_S1024_S1024x1) broadcasts_S1024x1_S1024x1024))

/-- The soft-shrunk first softmax. -/
def shrunk : FVec Ideal S1024x1024 .f32 :=
  maximumf (subf (mulf (shifted x0 x1) (broadcastTo S1024x1024
      (divf (broadcast S1024x1 (Scalar.ofBits .f32 0x3F800000#32)) (shapeCast S1024x1
        (multiReduction .add [1] S1024 (shifted x0 x1) 0x00000000#32 reduces_S1024x1024_S1024 (.inl rfl) rfl)
        shapeCasts_S1024_S1024x1)) broadcasts_S1024x1_S1024x1024))
    (broadcast S1024x1024 (Scalar.ofBits .f32 0x3B23D70A#32))) (broadcast S1024x1024 (Scalar.ofBits .f32 0x00000000#32))

/-- The second softmax's exponentials (no maximum subtracted). -/
def weights : FVec Ideal S1024x1024 .f32 := exp (shrunk x0 x1)

/-- The payload is these stages, then the contraction with the bank scaled row by row. -/
theorem pay_eq : k0_pay1 (F := Ideal) x0 x1 =
    tanh (mulf (matmul dot_S1024x1024_S1024x256_S1024x256_1_0_0_1_n_n none (truncf .bf16 (weights x0 x1) bitsLt_bf16_f32)
        (truncf .bf16 x1 bitsLt_bf16_f32) (constant S1024x256 .f32 0x00000000#32))
      (broadcastTo S1024x256 (divf (broadcast S1024x1 (Scalar.ofBits .f32 0x3F800000#32)) (shapeCast S1024x1
        (multiReduction .add [1] S1024 (weights x0 x1) 0x00000000#32 reduces_S1024x1024_S1024 (.inl rfl) rfl)
        shapeCasts_S1024_S1024x1)) broadcasts_S1024x1_S1024x256)) := rfl

/-! ## The first contraction -/

theorem lhs_scores_0 (i : S1024x1024.Idx) (q : dot_S1024x256_S1024x256_S1024x1024_1_1_0_0_n_n.contr.Idx) :
    (dot_S1024x256_S1024x256_S1024x1024_1_1_0_0_n_n.lhsIdx i q 0).val = (i 0).val := by
  unfold DotDims.lhsIdx
  rw [dif_neg (show ¬(0 : Fin S1024x256.rank) ∈ dot_S1024x256_S1024x256_S1024x1024_1_1_0_0_n_n.lhsBatch by decide), dif_pos (show (0 : Fin S1024x256.rank) ∈ dot_S1024x256_S1024x256_S1024x1024_1_1_0_0_n_n.lhsNonContracting by decide)]
  rfl
theorem lhs_scores_1 (i : S1024x1024.Idx) (q : dot_S1024x256_S1024x256_S1024x1024_1_1_0_0_n_n.contr.Idx) :
    (dot_S1024x256_S1024x256_S1024x1024_1_1_0_0_n_n.lhsIdx i q 1).val = (q ⟨0, by decide⟩).val :=
  dot_S1024x256_S1024x256_S1024x1024_1_1_0_0_n_n.lhsIdx_val_of_single rfl i q
theorem rhs_scores_0 (i : S1024x1024.Idx) (q : dot_S1024x256_S1024x256_S1024x1024_1_1_0_0_n_n.contr.Idx) :
    (dot_S1024x256_S1024x256_S1024x1024_1_1_0_0_n_n.rhsIdx i q 0).val = (i 1).val := by
  unfold DotDims.rhsIdx
  rw [dif_neg (show ¬(0 : Fin S1024x256.rank) ∈ dot_S1024x256_S1024x256_S1024x1024_1_1_0_0_n_n.rhsBatch by decide), dif_pos (show (0 : Fin S1024x256.rank) ∈ dot_S1024x256_S1024x256_S1024x1024_1_1_0_0_n_n.rhsNonContracting by decide)]
  rfl
theorem rhs_scores_1 (i : S1024x1024.Idx) (q : dot_S1024x256_S1024x256_S1024x1024_1_1_0_0_n_n.contr.Idx) :
    (dot_S1024x256_S1024x256_S1024x1024_1_1_0_0_n_n.rhsIdx i q 1).val = (q ⟨0, by decide⟩).val :=
  dot_S1024x256_S1024x256_S1024x1024_1_1_0_0_n_n.rhsIdx_val_of_single rfl i q

/-- The logit of token `p` against slot `k`: the sum over the features of the products. -/
theorem scores_at (p k : Fin 1024) : scores x0 x1 (ix2 p k) = logits (fun d => x0 (ix2 p d)) x1 k := by
  unfold scores logits
  refine (Ideal.matmul_constant_zero_apply dot_S1024x256_S1024x256_S1024x1024_1_1_0_0_n_n none _ _ (ix2 p k)).trans ?_
  rw [← Equiv.sum_comp (contrEquiv1 dot_S1024x256_S1024x256_S1024x1024_1_1_0_0_n_n 256 rfl rfl).symm]
  refine Finset.sum_congr rfl fun d _ => ?_
  have hk := contrEquiv1_symm_val dot_S1024x256_S1024x256_S1024x1024_1_1_0_0_n_n 256 rfl rfl d
  have el : dot_S1024x256_S1024x256_S1024x1024_1_1_0_0_n_n.lhsIdx (ix2 p k) ((contrEquiv1 dot_S1024x256_S1024x256_S1024x1024_1_1_0_0_n_n 256 rfl rfl).symm d) = ix2 p d := funext fun a => Fin.ext (by
    match a with
    | ⟨0, _⟩ => exact lhs_scores_0 _ _
    | ⟨1, _⟩ => exact (lhs_scores_1 _ _).trans hk)
  have er : dot_S1024x256_S1024x256_S1024x1024_1_1_0_0_n_n.rhsIdx (ix2 p k) ((contrEquiv1 dot_S1024x256_S1024x256_S1024x1024_1_1_0_0_n_n 256 rfl rfl).symm d) = ix2 k d := funext fun a => Fin.ext (by
    match a with
    | ⟨0, _⟩ => exact rhs_scores_0 _ _
    | ⟨1, _⟩ => exact (rhs_scores_1 _ _).trans hk)
  rw [el, er]
  rfl

/-- Row `p` of the logits. -/
abbrev att (p : Fin 1024) : Fin 1024 → EReal := fun k => scores x0 x1 (ix2 p k)

theorem att_eq (p : Fin 1024) : att x0 x1 p = logits (fun d => x0 (ix2 p d)) x1 := funext fun k => scores_at x0 x1 p k

/-! ## The softmax, the shrink, the exponentials -/

theorem shifted_at (p k : Fin 1024) : shifted x0 x1 (ix2 p k) = expShift (att x0 x1 p) k := by
  unfold shifted
  show Ideal.exp (scores x0 x1 (ix2 p k) - broadcastTo S1024x1024 _ _ (ix2 p k)) = _
  rw [rowStat_slots, laneMax_at]
  rfl

theorem shrunk_at (p k : Fin 1024) : shrunk x0 x1 (ix2 p k) = kernelShrunk threshold (att x0 x1 p) k := by
  unfold shrunk
  show max (shifted x0 x1 (ix2 p k) * broadcastTo S1024x1024 _ _ (ix2 p k) - Ideal.ofBits .f32 0x3B23D70A#32)
    (Ideal.ofBits .f32 0x00000000#32) = _
  rw [broadcastTo_a1_ab_apply]
  show max (shifted x0 x1 (ix2 p k) * Ideal.div (Ideal.ofBits .f32 0x3F800000#32)
    (shapeCast S1024x1 _ shapeCasts_S1024_S1024x1 (ix2 p (0 : Fin 1))) - _) _ = _
  rw [shapeCast_a_a1_apply, laneSum_at, ofBits_one, Ideal.ofBits_zero_f32]
  simp only [shifted_at]
  rfl

theorem weights_at (p k : Fin 1024) : weights x0 x1 (ix2 p k) = Ideal.exp (kernelShrunk threshold (att x0 x1 p) k) := by
  unfold weights
  show Ideal.exp (shrunk x0 x1 (ix2 p k)) = _
  rw [shrunk_at]

/-! ## The second contraction -/

theorem lhs_out_0 (i : S1024x256.Idx) (q : dot_S1024x1024_S1024x256_S1024x256_1_0_0_1_n_n.contr.Idx) :
    (dot_S1024x1024_S1024x256_S1024x256_1_0_0_1_n_n.lhsIdx i q 0).val = (i 0).val := by
  unfold DotDims.lhsIdx
  rw [dif_neg (show ¬(0 : Fin S1024x1024.rank) ∈ dot_S1024x1024_S1024x256_S1024x256_1_0_0_1_n_n.lhsBatch by decide), dif_pos (show (0 : Fin S1024x1024.rank) ∈ dot_S1024x1024_S1024x256_S1024x256_1_0_0_1_n_n.lhsNonContracting by decide)]
  rfl
theorem lhs_out_1 (i : S1024x256.Idx) (q : dot_S1024x1024_S1024x256_S1024x256_1_0_0_1_n_n.contr.Idx) :
    (dot_S1024x1024_S1024x256_S1024x256_1_0_0_1_n_n.lhsIdx i q 1).val = (q ⟨0, by decide⟩).val :=
  dot_S1024x1024_S1024x256_S1024x256_1_0_0_1_n_n.lhsIdx_val_of_single rfl i q
theorem rhs_out_0 (i : S1024x256.Idx) (q : dot_S1024x1024_S1024x256_S1024x256_1_0_0_1_n_n.contr.Idx) :
    (dot_S1024x1024_S1024x256_S1024x256_1_0_0_1_n_n.rhsIdx i q 0).val = (q ⟨0, by decide⟩).val :=
  dot_S1024x1024_S1024x256_S1024x256_1_0_0_1_n_n.rhsIdx_val_of_single rfl i q
theorem rhs_out_1 (i : S1024x256.Idx) (q : dot_S1024x1024_S1024x256_S1024x256_1_0_0_1_n_n.contr.Idx) :
    (dot_S1024x1024_S1024x256_S1024x256_1_0_0_1_n_n.rhsIdx i q 1).val = (i 1).val := by
  unfold DotDims.rhsIdx
  rw [dif_neg (show ¬(1 : Fin S1024x256.rank) ∈ dot_S1024x1024_S1024x256_S1024x256_1_0_0_1_n_n.rhsBatch by decide), dif_pos (show (1 : Fin S1024x256.rank) ∈ dot_S1024x1024_S1024x256_S1024x256_1_0_0_1_n_n.rhsNonContracting by decide)]
  rfl

/-- A [1024, 1024] array contracted with the bank over the slots, read at `(p, q)`. -/
theorem contract_at (w : FVec Ideal S1024x1024 .f32) (p : Fin 1024) (q : Fin 256) :
    matmul dot_S1024x1024_S1024x256_S1024x256_1_0_0_1_n_n none (truncf .bf16 w bitsLt_bf16_f32) (truncf .bf16 x1 bitsLt_bf16_f32)
        (constant S1024x256 .f32 0x00000000#32) (ix2 p q)
      = ∑ k : Fin 1024, w (ix2 p k) * x1 (ix2 k q) := by
  refine (Ideal.matmul_constant_zero_apply dot_S1024x1024_S1024x256_S1024x256_1_0_0_1_n_n none _ _ (ix2 p q)).trans ?_
  rw [← Equiv.sum_comp (contrEquiv1 dot_S1024x1024_S1024x256_S1024x256_1_0_0_1_n_n 1024 rfl rfl).symm]
  refine Finset.sum_congr rfl fun k _ => ?_
  have hk := contrEquiv1_symm_val dot_S1024x1024_S1024x256_S1024x256_1_0_0_1_n_n 1024 rfl rfl k
  have el : dot_S1024x1024_S1024x256_S1024x256_1_0_0_1_n_n.lhsIdx (ix2 p q) ((contrEquiv1 dot_S1024x1024_S1024x256_S1024x256_1_0_0_1_n_n 1024 rfl rfl).symm k) = ix2 p k := funext fun a => Fin.ext (by
    match a with
    | ⟨0, _⟩ => exact lhs_out_0 _ _
    | ⟨1, _⟩ => exact (lhs_out_1 _ _).trans hk)
  have er : dot_S1024x1024_S1024x256_S1024x256_1_0_0_1_n_n.rhsIdx (ix2 p q) ((contrEquiv1 dot_S1024x1024_S1024x256_S1024x256_1_0_0_1_n_n 1024 rfl rfl).symm k) = ix2 k q := funext fun a => Fin.ext (by
    match a with
    | ⟨0, _⟩ => exact (rhs_out_0 _ _).trans hk
    | ⟨1, _⟩ => exact rhs_out_1 _ _)
  rw [el, er]
  rfl

/-! ## The payload at an index -/

/-- THE PAYLOAD AT AN INDEX: entry `(p, q)` of the stored block is the kernel's arrangement of row `p` of the token block
    against the bank block, at feature `q`. -/
theorem pay_apply (p : Fin 1024) (q : Fin 256) :
    k0_pay1 (F := Ideal) x0 x1 (ix2 p q) = kernelEntry (fun d => x0 (ix2 p d)) x1 q := by
  rw [pay_eq]
  show Ideal.tanh (matmul (F := Ideal) dot_S1024x1024_S1024x256_S1024x256_1_0_0_1_n_n none _ _ _ (ix2 p q)
    * broadcastTo S1024x256 _ broadcasts_S1024x1_S1024x256 (ix2 p q)) = kernelRow threshold (logits (fun d => x0 (ix2 p d)) x1) (bankColumn x1 q)
  rw [contract_at, broadcastTo_a1_ab_apply]
  show Ideal.tanh (_ * Ideal.div (Ideal.ofBits .f32 0x3F800000#32)
    (shapeCast S1024x1 _ shapeCasts_S1024_S1024x1 (ix2 p (0 : Fin 1)))) = _
  rw [shapeCast_a_a1_apply, laneSum_at, ofBits_one, ← att_eq]
  simp only [weights_at]
  rfl

end Cert.MemoryAttention.Kernel

end
-- ==== Proof.KernelArray.lean ====
/-
  The kernel's result array: after the run, entry `(r, j)` holds the kernel's arrangement of token `r` against the bank,
  at feature `j`.

  The grid has 16 points; point `t` reads tokens `1024 t … 1024 t + 1023` (all 256 features) and the whole bank, and
  writes rows `1024 t … 1024 t + 1023` of the result. So the block point `t` writes back is the restriction of ONE
  whole-array function, `attend`, to that point's rows: entry `(p, q)` of the stored block depends on row `p` of the
  token block, which is row `1024 t + p` of the input, and on the bank block, which is the bank. The 16 blocks cover the
  16384 rows (row `r` lies in the block of point `r / 1024`), so the array after the run is `attend` of the inputs.
-/
import proofs.«115783_g57990648430879_cont_sun_c4_352_9_alg».proof.Proof.Gen.KernelIdeal.Value
import proofs.«115783_g57990648430879_cont_sun_c4_352_9_alg».proof.Proof.KernelRow

noncomputable section

namespace Cert.MemoryAttention.Kernel

open Cert.KernelIdeal Cert.KernelIdeal.Gen Cert.KernelIdeal.Value
open Idealize.ShloMosaic Idealize.ShloMosaic.TcCoe Idealize.SL.Sem Idealize.ShloMosaic.ValueIdx Cert.MemoryAttention
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The result as one function of the input and the bank, index by index. -/
def attend (x : S16384x256.Idx → EReal) (B : S1024x256.Idx → EReal) : S16384x256.Idx → EReal :=
  fun i => kernelEntry (fun d => x (ix2 (i 0) d)) B (i 1)

/-- The token block and the bank block at a point, at their literal types. -/
abbrev tokens (c : Dev nD) (t : Fin cfg0.N) : Vec Ideal S1024x256 .f32 := iblk m c 0 t
abbrev bank (c : Dev nD) (t : Fin cfg0.N) : Vec Ideal S1024x256 .f32 := iblk m c 1 t

/-- The printed index maps over the grid: the token window and the result window move together down the rows, one block
    per point; the bank window stays at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The bank block at any point is the bank. -/
theorem bank_eq (c : Dev nD) (t : Fin cfg0.N) : bank m c t = V m c main_arg1 := by
  obtain ⟨-, -, e2, e3, -, -⟩ := idx_facts t
  funext y
  show V m c main_arg1 (((cfg0.win 1).blk t).view.emb y) = V m c main_arg1 y
  refine congrArg (V m c main_arg1) (funext fun a => Fin.ext ?_)
  match a with
  | ⟨0, _⟩ => show win0_1.index t (0 : Fin 2) * 1024 + 1 * (y 0).val = (y 0).val; omega
  | ⟨1, _⟩ => show win0_1.index t (1 : Fin 2) * 256 + 1 * (y 1).val = (y 1).val; omega

/-- Row `p` of the token block at point `t` is the input's row under entry `(p, q)` of that point's result block. -/
theorem tokens_row (c : Dev nD) (t : Fin cfg0.N) (p : Fin 1024) (q : Fin 256) (d : Fin 256) :
    tokens m c t (ix2 p d) = V m c main_arg0 (ix2 ((((cfg0.win 2).blk t).view.emb (ix2 p q)) 0) d) := by
  obtain ⟨e0, e1, -, -, e4, -⟩ := idx_facts t
  show V m c main_arg0 (((cfg0.win 0).blk t).view.emb (ix2 p d)) = _
  refine congrArg (V m c main_arg0) (funext fun a => Fin.ext ?_)
  match a with
  | ⟨0, _⟩ => show win0_0.index t (0 : Fin 2) * 1024 + 1 * p.val = win0_2.index t (0 : Fin 2) * 1024 + 1 * p.val; omega
  | ⟨1, _⟩ => show win0_0.index t (1 : Fin 2) * 256 + 1 * d.val = d.val; omega

/-- WHAT POINT `t` WRITES BACK is block `t` of `attend` of the arrays as the region finds them. -/
theorem flushed_eq (c : Dev nD) (t : Fin cfg0.N) :
    (dats m 0 c).flushed 2 t = ((cfg0.win 2).blk t).view.read (Elt Ideal) (attend (V m c main_arg0) (V m c main_arg1)) := by
  rw [flushed2]
  unfold out0_2
  rw [View.canon_unit_zero hz]
  simp only [View.ld_unit_zero (S := S1024x256) hz]
  funext y
  obtain ⟨p, q, rfl⟩ : ∃ (p : Fin 1024) (q : Fin 256), y = ix2 p q := ⟨y 0, y 1, eq_ix2 y⟩
  show k0_pay1 (F := Ideal) (tokens m c t) (bank m c t) (ix2 p q)
    = attend (V m c main_arg0) (V m c main_arg1) (((cfg0.win 2).blk t).view.emb (ix2 p q))
  refine (pay_apply (tokens m c t) (bank m c t) p q).trans ?_
  unfold attend
  have hq : q = (((cfg0.win 2).blk t).view.emb (ix2 p q)) 1 := Fin.ext (by
    obtain ⟨-, -, -, -, -, e5⟩ := idx_facts t
    show q.val = win0_2.index t (1 : Fin 2) * 256 + 1 * q.val
    omega)
  have hx : (fun d => tokens m c t (ix2 p d))
      = fun d => V m c main_arg0 (ix2 ((((cfg0.win 2).blk t).view.emb (ix2 p q)) 0) d) :=
    funext fun d => tokens_row m c t p q d
  exact congr (congr (congrArg kernelEntry hx) (bank_eq m c t)) hq

/-- An index of the array is in point `t`'s block iff each coordinate is in the block's range on its axis. -/
theorem mem_blk (t : Fin cfg0.N) (i : S16384x256.Idx) :
    i ∈ ((cfg0.win 2).blk t).view.set ↔ ∀ a : Fin 2, win0_2.index t a * S1024x256.size a ≤ (i a).val ∧ (i a).val < win0_2.index t a * S1024x256.size a + S1024x256.size a := by
  show i ∈ ((View.whole main_v0).slice (win0_2.rect t)).set ↔ _
  rw [View.set_slice_whole, Rect.mem_set_unit]
  exact Iff.rfl

/-- Every index lies in the block of the point its row selects. -/
theorem cover (i : S16384x256.Idx) : ∃ t : Fin cfg0.N, (cfg0.win 2).flush t = true ∧ i ∈ ((cfg0.win 2).blk t).view.set := by
  have hi0 : (i 0).val < 16384 := (i 0).isLt
  have hi1 : (i 1).val < 256 := (i 1).isLt
  have hN : cfg0.N = 16 := N_0
  let t : Fin cfg0.N := ⟨(i 0).val / 1024, by omega⟩
  obtain ⟨-, -, -, -, e4, e5⟩ := idx_facts t
  have ht : t.val = (i 0).val / 1024 := rfl
  refine ⟨t, flush0_2 t, ?_⟩
  rw [mem_blk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 256 ≤ (i 1).val ∧ (i 1).val < win0_2.index t (1 : Fin 2) * 256 + 256; omega

/-- THE ARRAY after the run is `attend` of the input and the bank. -/
theorem final (c : Dev nD) : (dats m 0 c).arrAt 2 cfg0.N
    = attend (m ((c : Thread nD τ).loc main_arg0)) (m ((c : Thread nD τ).loc main_arg1)) :=
  (dats m 0 c).arrAt_eq_of_cover 2 (attend (V m c main_arg0) (V m c main_arg1)) (fun t _ => flushed_eq m c t) cover

/-- The run, read: the result array at `attend` of the arguments, the arguments unchanged. -/
theorem run : θ_run defs (onTc (τ := τ) (main (F := Ideal))) ⟨m, fun _ => 0, ρ⟩ fun r => ∀ c : Dev nD,
      r.2.mem ((c : Thread nD τ).loc main_v0) = attend (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.MemoryAttention.Kernel

end
-- ==== Proof.RefRow.lean ====
/-
  The reference program read at an index: entry `(r, j)` of its result is `referenceEntry` of row `r` of the input and of
  the bank.

  The reference computes, over the whole [16384, 1024] attention matrix, the logits (a contraction with the transposed
  bank), a softmax along the slots, the soft shrink, a second softmax, and the contraction with the bank, then `tanh`.
  Each stage is read here at `(r, k)` (or at `r`, for a row statistic) in terms of the stage before at the same row; the
  row maxima are folds of `max` from `-∞` over the slots, the row sums are `0 + Σ` over the slots, and every broadcast of
  a row statistic reads the statistic of the entry's own row.
-/
import proofs.«115783_g57990648430879_cont_sun_c4_352_9_alg».proof.Proof.Gen.ReferenceIdeal.Read
import proofs.«115783_g57990648430879_cont_sun_c4_352_9_alg».proof.Proof.Entry

noncomputable section

namespace Cert.MemoryAttention.Reference

open Cert.ReferenceIdeal Cert.ReferenceIdeal.Gen Cert.ReferenceIdeal.Read
open Idealize.ShloMosaic Idealize.ShloMosaic.ValueIdx Cert.MemoryAttention

variable (x : (⟨S16384x256, .f32⟩ : BufTy).Contents (Elt Ideal)) (B : (⟨S1024x256, .f32⟩ : BufTy).Contents (Elt Ideal))

/-- Row `r` of the reference's logits. -/
abbrev att (r : Fin 16384) : Fin 1024 → EReal := fun k => val_main_v1 (F := Ideal) x B (ix2 r k)

/-- The logits: token `r`'s features against slot `k`'s (the transposed bank read back at `(k, d)`). -/
theorem att_eq (r : Fin 16384) : att x B r = logits (fun d => x (ix2 r d)) B := by
  funext k
  show val_main_v1 (F := Ideal) x B (ix2 r k) = _
  rw [val_main_v1_apply]
  unfold logits
  refine Finset.sum_congr rfl fun d _ => ?_
  rw [val_main_v0_apply]
  have e1 : lidx_main_v1 (ix2 r k) d = ix2 r d :=
    funext fun a => Fin.ext (by match a with | ⟨0, _⟩ => rfl | ⟨1, _⟩ => rfl)
  have e2 : idx_main_v0 (ridx_main_v1 (ix2 r k) d) = ix2 k d :=
    funext fun a => Fin.ext (by match a with | ⟨0, _⟩ => rfl | ⟨1, _⟩ => rfl)
  rw [e1, e2]

/-- The index over row `r` with slot `k` inserted on the reduced axis is `(r, k)`. -/
theorem lift_eq (h : S16384x1024.Reduces [1] S16384) (r : Fin 16384) (k : Fin 1024) : h.lift (ix1 r) k = ix2 r k :=
  funext fun a => Fin.ext (by match a with | ⟨0, _⟩ => rfl | ⟨1, _⟩ => rfl)

/-- A host maximum over the slots, from the pattern of `-inf`, compared once more with that pattern. -/
theorem rowMax_at (y : S16384x1024.Idx → EReal) (r : Fin 16384) :
    FloatOps.maximumf (F := Ideal) (φ := .f32) (FloatOps.ofBits .f32 0xFF800000#32)
        (Host.reduce (FloatOps.maximumf (F := Ideal) (φ := .f32)) y (constant (F := Ideal) S_ .f32 0xFF800000#32) reducesTo_S16384x1024_S16384_d1 h_S_ (ix1 r))
      = max ⊥ (rowMax fun k => y (ix2 r k)) := by
  rw [Host.reduce_eq_fold_single (FloatOps.maximumf (F := Ideal) (φ := .f32)) y _ reducesTo_S16384x1024_S16384_d1 (by decide) h_S_]
  have hy : (y ∘ (by decide : S16384x1024.Reduces [1] S16384).lift (ix1 r)) = fun k : Fin 1024 => y (ix2 r k) :=
    funext fun k => congrArg y (lift_eq _ r k)
  show max (Ideal.ofBits .f32 0xFF800000#32) (Finset.fold max (Ideal.ofBits .f32 0xFF800000#32) (y ∘ _) Finset.univ) = _
  rw [hy, ofBits_negInf]
  rfl

theorem bcast_row (r : Fin 16384) (k : Fin 1024) : idx_main_v5 (idx_main_v6 (ix2 r k)) = ix1 r :=
  funext fun a => Fin.ext (by match a with | ⟨0, _⟩ => rfl)

theorem sum_idx (r : Fin 16384) (k : Fin 1024) : idx_main_v9 (ix1 r) k = ix2 r k :=
  funext fun a => Fin.ext (by match a with | ⟨0, _⟩ => rfl | ⟨1, _⟩ => rfl)

/-- The first softmax's shifted exponentials. -/
theorem v8_at (r : Fin 16384) (k : Fin 1024) : val_main_v8 (F := Ideal) x B (ix2 r k) = refExp (att x B r) k := by
  rw [val_main_v8_apply, val_main_v7_apply, val_main_v6_apply, val_main_v5_apply, bcast_row, val_main_v4_apply,
    val_main_v3_apply, val_main_cst_0_apply]
  unfold val_main_v2 val_main_cst
  rw [rowMax_at]
  rfl

/-- Their sum along the row. -/
theorem v9_at (r : Fin 16384) : val_main_v9 (F := Ideal) x B (ix1 r) = 0 + ∑ k, refExp (att x B r) k := by
  rw [val_main_v9_apply, val_main_cst_1_apply]
  show Ideal.ofBits .f32 0x00000000#32 + _ = _
  rw [Ideal.ofBits_zero_f32]
  refine congrArg (0 + ·) (Finset.sum_congr rfl fun k _ => ?_)
  rw [sum_idx, v8_at]

/-- The first softmax. -/
theorem v12_at (r : Fin 16384) (k : Fin 1024) : val_main_v12 (F := Ideal) x B (ix2 r k) = refProb (att x B r) k := by
  rw [val_main_v12_apply, val_main_v11_apply, val_main_v10_apply, v8_at]
  have e : idx_main_v10 (idx_main_v11 (ix2 r k)) = ix1 r := funext fun a => Fin.ext (by match a with | ⟨0, _⟩ => rfl)
  rw [e, v9_at]
  rfl

/-- The soft shrink. -/
theorem v19_at (r : Fin 16384) (k : Fin 1024) :
    val_main_v19 (F := Ideal) x B (ix2 r k) = refShrunk threshold (att x B r) k := by
  rw [val_main_v19_apply, val_main_v13_apply, val_main_v18_apply, val_main_v16_apply, val_main_v14_apply,
    val_main_v15_apply, val_main_cst_2_apply, val_main_v17_apply, val_main_cst_3_apply, v12_at]
  show Ideal.sign _ * max (max _ (-_) - Ideal.ofBits .f32 0x3B23D70A#32) (Ideal.ofBits .f32 0x00000000#32) = _
  rw [Ideal.ofBits_zero_f32]
  rfl

/-- The second softmax's shifted exponentials. -/
theorem v26_at (r : Fin 16384) (k : Fin 1024) :
    val_main_v26 (F := Ideal) x B (ix2 r k) = refExp (refShrunk threshold (att x B r)) k := by
  rw [val_main_v26_apply, val_main_v25_apply, val_main_v24_apply, val_main_v23_apply]
  have e : idx_main_v23 (idx_main_v24 (ix2 r k)) = ix1 r := funext fun a => Fin.ext (by match a with | ⟨0, _⟩ => rfl)
  rw [e, val_main_v22_apply, val_main_v21_apply, val_main_cst_5_apply]
  unfold val_main_v20 val_main_cst_4
  rw [rowMax_at, v19_at]
  have hf : (fun k' => val_main_v19 (F := Ideal) x B (ix2 r k')) = refShrunk threshold (att x B r) :=
    funext fun k' => v19_at x B r k'
  rw [hf]
  rfl

theorem v27_at (r : Fin 16384) :
    val_main_v27 (F := Ideal) x B (ix1 r) = 0 + ∑ k, refExp (refShrunk threshold (att x B r)) k := by
  rw [val_main_v27_apply, val_main_cst_6_apply]
  show Ideal.ofBits .f32 0x00000000#32 + _ = _
  rw [Ideal.ofBits_zero_f32]
  refine congrArg (0 + ·) (Finset.sum_congr rfl fun k _ => ?_)
  have e : idx_main_v27 (ix1 r) k = ix2 r k := funext fun a => Fin.ext (by match a with | ⟨0, _⟩ => rfl | ⟨1, _⟩ => rfl)
  rw [e, v26_at]

/-- The second softmax. -/
theorem v30_at (r : Fin 16384) (k : Fin 1024) :
    val_main_v30 (F := Ideal) x B (ix2 r k) = refWeight threshold (att x B r) k := by
  rw [val_main_v30_apply, val_main_v29_apply, val_main_v28_apply, v26_at]
  have e : idx_main_v28 (idx_main_v29 (ix2 r k)) = ix1 r := funext fun a => Fin.ext (by match a with | ⟨0, _⟩ => rfl)
  rw [e, v27_at]
  rfl

/-- Entry `(r, j)` of the reference's result is the reference's arrangement of row `r` against the bank, at feature `j`. -/
theorem result_at (r : Fin 16384) (j : Fin 256) :
    val_main_v32 (F := Ideal) x B (ix2 r j) = referenceEntry (fun d => x (ix2 r d)) B j := by
  rw [val_main_v32_apply, val_main_v31_apply]
  unfold referenceEntry referenceRow
  rw [← att_eq]
  simp only [Ideal.hostUnary_tanh_def]
  refine congrArg Ideal.tanh (Finset.sum_congr rfl fun k _ => ?_)
  have e1 : lidx_main_v31 (ix2 r j) k = ix2 r k := funext fun a => Fin.ext (by match a with | ⟨0, _⟩ => rfl | ⟨1, _⟩ => rfl)
  have e2 : ridx_main_v31 (ix2 r j) k = ix2 k j := funext fun a => Fin.ext (by match a with | ⟨0, _⟩ => rfl | ⟨1, _⟩ => rfl)
  rw [e1, e2, v30_at]
  rfl

/-- THE REFERENCE AT AN INDEX: entry `i` of its result is the reference's arrangement of row `i 0` against the bank, at
    feature `i 1`. -/
theorem result_apply (i : S16384x256.Idx) :
    val_main_v32 (F := Ideal) x B i = referenceEntry (fun d => x (ix2 (i 0) d)) B (i 1) := by
  exact (congrArg (val_main_v32 (F := Ideal) x B) (eq_ix2 i)).trans (result_at x B (i 0) (i 1))

end Cert.MemoryAttention.Reference

end
-- ==== Proof.Finite.lean ====
/-
  What the precondition says: every entry of both inputs is a real number.

  The precondition is `jnp.all (|x| < +inf) & jnp.all (|B| < +inf)` equal to the one word 1. The conjunction splits; each
  `all` is a reduction by `and` into a single word, so every compared entry gave 1; and for an extended real `v`,
  `max v (-v) < ⊤` excludes both infinities.
-/
import proofs.«115783_g57990648430879_cont_sun_c4_352_9_alg».proof.Pre_finite_inputs
import Idealize.ShloMosaic.Lib.ReduceAll
import Idealize.ShloMosaic.Lib.ValueIdx
import Idealize.ShloMosaic.PureOps.Ideal

noncomputable section

namespace Cert.MemoryAttention.Finite

open Idealize.ShloMosaic Cert.Pre_finite_inputs

instance : Subsingleton S_.Idx := ⟨fun a b => funext fun d => d.elim0⟩

/-- An extended real whose absolute value compares below the pattern of `+inf` is a real number. -/
theorem real_of_abs_lt_inf (v : EReal)
    (h : Ideal.cmp .olt (max v (-v)) (Ideal.ofBits .f32 0x7F800000#32) = 1#1) : ∃ r : ℝ, v = (r : EReal) := by
  have htop : Ideal.ofBits .f32 0x7F800000#32 = ⊤ := by simp [Ideal.ofBits, Ideal.ieee]
  rw [htop] at h
  induction v using EReal.rec with
  | bot => simp [Ideal.cmp] at h
  | top => simp [Ideal.cmp] at h
  | coe r => exact ⟨r, rfl⟩

/-- Under the precondition both inputs hold real numbers everywhere. -/
theorem real_of_pre [Facts] (x : FVec Ideal S16384x256 .f32) (B : FVec Ideal S1024x256 .f32)
    (h : fn (F := Ideal) x B = fun _ => 1#1) :
    (∀ i, ∃ r : ℝ, x i = (r : EReal)) ∧ (∀ i, ∃ r : ℝ, B i = (r : EReal)) := by
  have h0 := congrFun h ValueIdx.ix0
  dsimp only [fn] at h0
  obtain ⟨h1, h2⟩ := IntOp.andi_eq_one.mp h0
  refine ⟨fun i => ?_, fun i => ?_⟩
  · exact real_of_abs_lt_inf (x i) (Host.reduce_andi_all _ _ _ _ _ h1 i)
  · exact real_of_abs_lt_inf (B i) (Host.reduce_andi_all _ _ _ _ _ h2 i)

end Cert.MemoryAttention.Finite

end
-- ==== Proof.lean ====
/-
  Memory-bank attention: `tanh (softmax (softshrink (softmax (x · Bᵀ))) · B)` over 16384 tokens of 256 features against a
  bank `B` of 1024 slots, as one fused kernel on blocks of 1024 tokens, against the plain array program.

  The kernel differs from the reference in four places: it multiplies by a reciprocal where the reference divides
  (`e · (1 / Σ e)` for `e / Σ e`); it drops the sign and the absolute value of the soft shrink, the first softmax being
  positive; it takes the second softmax's exponentials without subtracting their maximum; and it applies that softmax's
  normalisation after the contraction with the bank rather than before. Over the extended reals each of these is an
  identity of real numbers, and the intermediate values are real numbers once the inputs are: that is what the
  precondition gives (every entry of `x` and `B` finite), and it is used.

  The proof: the result of either program at entry `(r, j)` is a function of row `r` of `x` and of `B` — the kernel's
  read off the block its grid point stores and the cover of the rows by the 16 blocks, the reference's off its
  operations one at a time — and the two functions agree on real inputs by the row law. The word-level kernel and the
  idealized one run by their generated frames; the reference's frame is its run with the result dropped; the ideal pass
  rewrote nothing, so there is nothing to preserve.
-/
import proofs.«115783_g57990648430879_cont_sun_c4_352_9_alg».proof.Defs
import proofs.«115783_g57990648430879_cont_sun_c4_352_9_alg».proof.Proof.Gen.Kernel
import proofs.«115783_g57990648430879_cont_sun_c4_352_9_alg».proof.Proof.Gen.Kernel.Skeleton
import proofs.«115783_g57990648430879_cont_sun_c4_352_9_alg».proof.Proof.Gen.Kernel.Launch
import proofs.«115783_g57990648430879_cont_sun_c4_352_9_alg».proof.Proof.Gen.Kernel.Points
import proofs.«115783_g57990648430879_cont_sun_c4_352_9_alg».proof.Proof.Gen.Kernel.Frame
import proofs.«115783_g57990648430879_cont_sun_c4_352_9_alg».proof.Proof.Gen.KernelIdeal
import proofs.«115783_g57990648430879_cont_sun_c4_352_9_alg».proof.Proof.Gen.KernelIdeal.Skeleton
import proofs.«115783_g57990648430879_cont_sun_c4_352_9_alg».proof.Proof.Gen.KernelIdeal.Launch
import proofs.«115783_g57990648430879_cont_sun_c4_352_9_alg».proof.Proof.Gen.KernelIdeal.Points
import proofs.«115783_g57990648430879_cont_sun_c4_352_9_alg».proof.Proof.Gen.KernelIdeal.Frame
import proofs.«115783_g57990648430879_cont_sun_c4_352_9_alg».proof.Proof.Gen.ReferenceIdeal
import proofs.«115783_g57990648430879_cont_sun_c4_352_9_alg».proof.Proof.Gen.Pre_finite_inputs
import proofs.«115783_g57990648430879_cont_sun_c4_352_9_alg».proof.Proof.Gen.KernelIdeal.Value
import proofs.«115783_g57990648430879_cont_sun_c4_352_9_alg».proof.Proof.Gen.ReferenceIdeal.Run
import proofs.«115783_g57990648430879_cont_sun_c4_352_9_alg».proof.Proof.Gen.ReferenceIdeal.Read
import proofs.«115783_g57990648430879_cont_sun_c4_352_9_alg».proof.Proof.KernelArray
import proofs.«115783_g57990648430879_cont_sun_c4_352_9_alg».proof.Proof.RefRow
import proofs.«115783_g57990648430879_cont_sun_c4_352_9_alg».proof.Proof.Finite
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result array at the kernel's arrangement of the inputs: the kernel's by its blocks, the
    reference's because its own arrangement, entry by entry, equals the kernel's on the real inputs the precondition
    admits. -/
theorem algebraic : Cert.algebraic_KernelIdeal_ReferenceIdeal := by
  intro m ρ m' ρ' hpre hagree
  refine ⟨_, Cert.MemoryAttention.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v32_eq, (hagree c).1, (hagree c).2]
  obtain ⟨hx, hB⟩ := Cert.MemoryAttention.Finite.real_of_pre _ _ (hpre c)
  funext i
  rw [Cert.MemoryAttention.Reference.result_apply]
  exact (Cert.MemoryAttention.kernelEntry_eq_referenceEntry _ _ _ (fun d => hx _) hB).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
